-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3328 : Shape := ⟨2, ![16384, 3328]⟩
abbrev S16384x128 : Shape := ⟨2, ![16384, 128]⟩
abbrev S_ : Shape := ⟨0, ![]⟩

class Facts : Prop where
  bcast_S_S16384x3328 : S_.BroadcastsInDim S16384x3328 (![] : Fin 0 → Fin S16384x3328.rank)
  reducesTo_S16384x3328_S_d0_1 : S16384x3328.ReducesTo [0, 1] S_
  h_S_ : 0 < S_.numel
  bcast_S_S16384x128 : S_.BroadcastsInDim S16384x128 (![] : Fin 0 → Fin S16384x128.rank)
  reducesTo_S16384x128_S_d0_1 : S16384x128.ReducesTo [0, 1] S_

variable [Facts]

def fn {F : FTy → Type} [FloatOps F] (main_arg0 : FVec F S16384x3328 .f32) (main_arg1 : FVec F S16384x128 .f32) : IVec S_ 1 :=
  let main_v0 : FVec F S16384x3328 .f32 := Host.absf main_arg0
  let main_cst : FVec F S_ .f32 := constant S_ .f32 0x7F800000#32
  let main_v1 : FVec F S16384x3328 .f32 := broadcastInDim S16384x3328 ![] bcast_S_S16384x3328 main_cst
  let main_v2 : IVec S16384x3328 1 := cmpf .olt main_v0 main_v1
  let main_c : IVec S_ 1 := constantI S_ 1 1#1
  let main_v3 : IVec S_ 1 := (fun x v => Host.reduce IntOp.andi x v reducesTo_S16384x3328_S_d0_1 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  main_v8
-- ==== Kernel.lean ====
abbrev S16384x3328 : Shape := ⟨2, ![16384, 3328]⟩
abbrev S16384x128 : Shape := ⟨2, ![16384, 128]⟩
abbrev S16384x3781 : Shape := ⟨2, ![16384, 3781]⟩
abbrev S256x3328 : Shape := ⟨2, ![256, 3328]⟩
abbrev S256x128 : Shape := ⟨2, ![256, 128]⟩
abbrev S256x3781 : Shape := ⟨2, ![256, 3781]⟩
abbrev S256x26x128 : Shape := ⟨3, ![256, 26, 128]⟩
abbrev S256x1x128 : Shape := ⟨3, ![256, 1, 128]⟩
abbrev S256x25x128 : Shape := ⟨3, ![256, 25, 128]⟩
abbrev S256x25 : Shape := ⟨2, ![256, 25]⟩
abbrev S256x24x128 : Shape := ⟨3, ![256, 24, 128]⟩
abbrev S256x24 : Shape := ⟨2, ![256, 24]⟩
abbrev S256x23x128 : Shape := ⟨3, ![256, 23, 128]⟩
abbrev S256x23 : Shape := ⟨2, ![256, 23]⟩
abbrev S256x22x128 : Shape := ⟨3, ![256, 22, 128]⟩
abbrev S256x22 : Shape := ⟨2, ![256, 22]⟩
abbrev S256x21x128 : Shape := ⟨3, ![256, 21, 128]⟩
abbrev S256x21 : Shape := ⟨2, ![256, 21]⟩
abbrev S256x20x128 : Shape := ⟨3, ![256, 20, 128]⟩
abbrev S256x20 : Shape := ⟨2, ![256, 20]⟩
abbrev S256x19x128 : Shape := ⟨3, ![256, 19, 128]⟩
abbrev S256x19 : Shape := ⟨2, ![256, 19]⟩
abbrev S256x18x128 : Shape := ⟨3, ![256, 18, 128]⟩
abbrev S256x18 : Shape := ⟨2, ![256, 18]⟩
abbrev S256x17x128 : Shape := ⟨3, ![256, 17, 128]⟩
abbrev S256x17 : Shape := ⟨2, ![256, 17]⟩
abbrev S256x16x128 : Shape := ⟨3, ![256, 16, 128]⟩
abbrev S256x16 : Shape := ⟨2, ![256, 16]⟩
abbrev S256x15x128 : Shape := ⟨3, ![256, 15, 128]⟩
abbrev S256x15 : Shape := ⟨2, ![256, 15]⟩
abbrev S256x14x128 : Shape := ⟨3, ![256, 14, 128]⟩
abbrev S256x14 : Shape := ⟨2, ![256, 14]⟩
abbrev S256x13x128 : Shape := ⟨3, ![256, 13, 128]⟩
abbrev S256x13 : Shape := ⟨2, ![256, 13]⟩
abbrev S256x12x128 : Shape := ⟨3, ![256, 12, 128]⟩
abbrev S256x12 : Shape := ⟨2, ![256, 12]⟩
abbrev S256x11x128 : Shape := ⟨3, ![256, 11, 128]⟩
abbrev S256x11 : Shape := ⟨2, ![256, 11]⟩
abbrev S256x10x128 : Shape := ⟨3, ![256, 10, 128]⟩
abbrev S256x10 : Shape := ⟨2, ![256, 10]⟩
abbrev S256x9x128 : Shape := ⟨3, ![256, 9, 128]⟩
abbrev S256x9 : Shape := ⟨2, ![256, 9]⟩
abbrev S256x8x128 : Shape := ⟨3, ![256, 8, 128]⟩
abbrev S256x8 : Shape := ⟨2, ![256, 8]⟩
abbrev S256x7x128 : Shape := ⟨3, ![256, 7, 128]⟩
abbrev S256x7 : Shape := ⟨2, ![256, 7]⟩
abbrev S256x6x128 : Shape := ⟨3, ![256, 6, 128]⟩
abbrev S256x6 : Shape := ⟨2, ![256, 6]⟩
abbrev S256x5x128 : Shape := ⟨3, ![256, 5, 128]⟩
abbrev S256x5 : Shape := ⟨2, ![256, 5]⟩
abbrev S256x4x128 : Shape := ⟨3, ![256, 4, 128]⟩
abbrev S256x4 : Shape := ⟨2, ![256, 4]⟩
abbrev S256x3x128 : Shape := ⟨3, ![256, 3, 128]⟩
abbrev S256x3 : Shape := ⟨2, ![256, 3]⟩
abbrev S256x2x128 : Shape := ⟨3, ![256, 2, 128]⟩
abbrev S256x2 : Shape := ⟨2, ![256, 2]⟩
abbrev S256x1 : Shape := ⟨2, ![256, 1]⟩
abbrev S256x325 : Shape := ⟨2, ![256, 325]⟩

abbrev nBuf : Space → Nat
  | .hbm => 3
  | .vmem => 6
  | .smem => 0
  | _ => 0

abbrev bufTy : (tb : Table) → Fin (tcTables nBuf tb) → BufTy
  | .hbm, ⟨0, _⟩ => ⟨S16384x3328, .f32⟩
  | .hbm, ⟨1, _⟩ => ⟨S16384x128, .f32⟩
  | .hbm, ⟨2, _⟩ => ⟨S16384x3781, .f32⟩
  | .local _ .vmem, ⟨0, _⟩ => ⟨S256x3328, .f32⟩
  | .local _ .vmem, ⟨1, _⟩ => ⟨S256x3328, .f32⟩
  | .local _ .vmem, ⟨2, _⟩ => ⟨S256x128, .f32⟩
  | .local _ .vmem, ⟨3, _⟩ => ⟨S256x128, .f32⟩
  | .local _ .vmem, ⟨4, _⟩ => ⟨S256x3781, .f32⟩
  | .local _ .vmem, ⟨5, _⟩ => ⟨S256x3781, .f32⟩
  | _, _ => ⟨S16384x3328, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3328 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x3781 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S256x3328_S256x3328_0_0 : ∀ a, (![0, 0] : Fin 2 → Nat) a + S256x3328.size a ≤ S256x3328.size a
  h_S256x3328 : 0 < S256x3328.numel
  shapeCasts_S256x3328_S256x26x128 : S256x3328.ShapeCasts S256x26x128
  slices_S256x26x128_o0_0_0_S256x1x128 : S256x26x128.Slices ![0, 0, 0] S256x1x128
  slices_S256x26x128_o0_1_0_S256x25x128 : S256x26x128.Slices ![0, 1, 0] S256x25x128
  broadcasts_S256x1x128_S256x25x128 : S256x1x128.Broadcasts S256x25x128
  reduces_S256x25x128_S256x25 : S256x25x128.Reduces [2] S256x25
  slices_S256x26x128_o0_1_0_S256x1x128 : S256x26x128.Slices ![0, 1, 0] S256x1x128
  slices_S256x26x128_o0_2_0_S256x24x128 : S256x26x128.Slices ![0, 2, 0] S256x24x128
  broadcasts_S256x1x128_S256x24x128 : S256x1x128.Broadcasts S256x24x128
  reduces_S256x24x128_S256x24 : S256x24x128.Reduces [2] S256x24
  slices_S256x26x128_o0_2_0_S256x1x128 : S256x26x128.Slices ![0, 2, 0] S256x1x128
  slices_S256x26x128_o0_3_0_S256x23x128 : S256x26x128.Slices ![0, 3, 0] S256x23x128
  broadcasts_S256x1x128_S256x23x128 : S256x1x128.Broadcasts S256x23x128
  reduces_S256x23x128_S256x23 : S256x23x128.Reduces [2] S256x23
  slices_S256x26x128_o0_3_0_S256x1x128 : S256x26x128.Slices ![0, 3, 0] S256x1x128
  slices_S256x26x128_o0_4_0_S256x22x128 : S256x26x128.Slices ![0, 4, 0] S256x22x128
  broadcasts_S256x1x128_S256x22x128 : S256x1x128.Broadcasts S256x22x128
  reduces_S256x22x128_S256x22 : S256x22x128.Reduces [2] S256x22
  slices_S256x26x128_o0_4_0_S256x1x128 : S256x26x128.Slices ![0, 4, 0] S256x1x128
  slices_S256x26x128_o0_5_0_S256x21x128 : S256x26x128.Slices ![0, 5, 0] S256x21x128
  broadcasts_S256x1x128_S256x21x128 : S256x1x128.Broadcasts S256x21x128
  reduces_S256x21x128_S256x21 : S256x21x128.Reduces [2] S256x21
  slices_S256x26x128_o0_5_0_S256x1x128 : S256x26x128.Slices ![0, 5, 0] S256x1x128
  slices_S256x26x128_o0_6_0_S256x20x128 : S256x26x128.Slices ![0, 6, 0] S256x20x128
  broadcasts_S256x1x128_S256x20x128 : S256x1x128.Broadcasts S256x20x128
  reduces_S256x20x128_S256x20 : S256x20x128.Reduces [2] S256x20
  slices_S256x26x128_o0_6_0_S256x1x128 : S256x26x128.Slices ![0, 6, 0] S256x1x128
  slices_S256x26x128_o0_7_0_S256x19x128 : S256x26x128.Slices ![0, 7, 0] S256x19x128
  broadcasts_S256x1x128_S256x19x128 : S256x1x128.Broadcasts S256x19x128
  reduces_S256x19x128_S256x19 : S256x19x128.Reduces [2] S256x19
  slices_S256x26x128_o0_7_0_S256x1x128 : S256x26x128.Slices ![0, 7, 0] S256x1x128
  slices_S256x26x128_o0_8_0_S256x18x128 : S256x26x128.Slices ![0, 8, 0] S256x18x128
  broadcasts_S256x1x128_S256x18x128 : S256x1x128.Broadcasts S256x18x128
  reduces_S256x18x128_S256x18 : S256x18x128.Reduces [2] S256x18
  slices_S256x26x128_o0_8_0_S256x1x128 : S256x26x128.Slices ![0, 8, 0] S256x1x128
  slices_S256x26x128_o0_9_0_S256x17x128 : S256x26x128.Slices ![0, 9, 0] S256x17x128
  broadcasts_S256x1x128_S256x17x128 : S256x1x128.Broadcasts S256x17x128
  reduces_S256x17x128_S256x17 : S256x17x128.Reduces [2] S256x17
  slices_S256x26x128_o0_9_0_S256x1x128 : S256x26x128.Slices ![0, 9, 0] S256x1x128
  slices_S256x26x128_o0_10_0_S256x16x128 : S256x26x128.Slices ![0, 10, 0] S256x16x128
  broadcasts_S256x1x128_S256x16x128 : S256x1x128.Broadcasts S256x16x128
  reduces_S256x16x128_S256x16 : S256x16x128.Reduces [2] S256x16
  slices_S256x26x128_o0_10_0_S256x1x128 : S256x26x128.Slices ![0, 10, 0] S256x1x128
  slices_S256x26x128_o0_11_0_S256x15x128 : S256x26x128.Slices ![0, 11, 0] S256x15x128
  broadcasts_S256x1x128_S256x15x128 : S256x1x128.Broadcasts S256x15x128
  reduces_S256x15x128_S256x15 : S256x15x128.Reduces [2] S256x15
  slices_S256x26x128_o0_11_0_S256x1x128 : S256x26x128.Slices ![0, 11, 0] S256x1x128
  slices_S256x26x128_o0_12_0_S256x14x128 : S256x26x128.Slices ![0, 12, 0] S256x14x128
  broadcasts_S256x1x128_S256x14x128 : S256x1x128.Broadcasts S256x14x128
  reduces_S256x14x128_S256x14 : S256x14x128.Reduces [2] S256x14
  slices_S256x26x128_o0_12_0_S256x1x128 : S256x26x128.Slices ![0, 12, 0] S256x1x128
  slices_S256x26x128_o0_13_0_S256x13x128 : S256x26x128.Slices ![0, 13, 0] S256x13x128
  broadcasts_S256x1x128_S256x13x128 : S256x1x128.Broadcasts S256x13x128
  reduces_S256x13x128_S256x13 : S256x13x128.Reduces [2] S256x13
  slices_S256x26x128_o0_13_0_S256x1x128 : S256x26x128.Slices ![0, 13, 0] S256x1x128
  slices_S256x26x128_o0_14_0_S256x12x128 : S256x26x128.Slices ![0, 14, 0] S256x12x128
  broadcasts_S256x1x128_S256x12x128 : S256x1x128.Broadcasts S256x12x128
  reduces_S256x12x128_S256x12 : S256x12x128.Reduces [2] S256x12
  slices_S256x26x128_o0_14_0_S256x1x128 : S256x26x128.Slices ![0, 14, 0] S256x1x128
  slices_S256x26x128_o0_15_0_S256x11x128 : S256x26x128.Slices ![0, 15, 0] S256x11x128
  broadcasts_S256x1x128_S256x11x128 : S256x1x128.Broadcasts S256x11x128
  reduces_S256x11x128_S256x11 : S256x11x128.Reduces [2] S256x11
  slices_S256x26x128_o0_15_0_S256x1x128 : S256x26x128.Slices ![0, 15, 0] S256x1x128
  slices_S256x26x128_o0_16_0_S256x10x128 : S256x26x128.Slices ![0, 16, 0] S256x10x128
  broadcasts_S256x1x128_S256x10x128 : S256x1x128.Broadcasts S256x10x128
  reduces_S256x10x128_S256x10 : S256x10x128.Reduces [2] S256x10
  slices_S256x26x128_o0_16_0_S256x1x128 : S256x26x128.Slices ![0, 16, 0] S256x1x128
  slices_S256x26x128_o0_17_0_S256x9x128 : S256x26x128.Slices ![0, 17, 0] S256x9x128
  broadcasts_S256x1x128_S256x9x128 : S256x1x128.Broadcasts S256x9x128
  reduces_S256x9x128_S256x9 : S256x9x128.Reduces [2] S256x9
  slices_S256x26x128_o0_17_0_S256x1x128 : S256x26x128.Slices ![0, 17, 0] S256x1x128
  slices_S256x26x128_o0_18_0_S256x8x128 : S256x26x128.Slices ![0, 18, 0] S256x8x128
  broadcasts_S256x1x128_S256x8x128 : S256x1x128.Broadcasts S256x8x128
  reduces_S256x8x128_S256x8 : S256x8x128.Reduces [2] S256x8
  slices_S256x26x128_o0_18_0_S256x1x128 : S256x26x128.Slices ![0, 18, 0] S256x1x128
  slices_S256x26x128_o0_19_0_S256x7x128 : S256x26x128.Slices ![0, 19, 0] S256x7x128
  broadcasts_S256x1x128_S256x7x128 : S256x1x128.Broadcasts S256x7x128
  reduces_S256x7x128_S256x7 : S256x7x128.Reduces [2] S256x7
  slices_S256x26x128_o0_19_0_S256x1x128 : S256x26x128.Slices ![0, 19, 0] S256x1x128
  slices_S256x26x128_o0_20_0_S256x6x128 : S256x26x128.Slices ![0, 20, 0] S256x6x128
  broadcasts_S256x1x128_S256x6x128 : S256x1x128.Broadcasts S256x6x128
  reduces_S256x6x128_S256x6 : S256x6x128.Reduces [2] S256x6
  slices_S256x26x128_o0_20_0_S256x1x128 : S256x26x128.Slices ![0, 20, 0] S256x1x128
  slices_S256x26x128_o0_21_0_S256x5x128 : S256x26x128.Slices ![0, 21, 0] S256x5x128
  broadcasts_S256x1x128_S256x5x128 : S256x1x128.Broadcasts S256x5x128
  reduces_S256x5x128_S256x5 : S256x5x128.Reduces [2] S256x5
  slices_S256x26x128_o0_21_0_S256x1x128 : S256x26x128.Slices ![0, 21, 0] S256x1x128
  slices_S256x26x128_o0_22_0_S256x4x128 : S256x26x128.Slices ![0, 22, 0] S256x4x128
  broadcasts_S256x1x128_S256x4x128 : S256x1x128.Broadcasts S256x4x128
  reduces_S256x4x128_S256x4 : S256x4x128.Reduces [2] S256x4
  slices_S256x26x128_o0_22_0_S256x1x128 : S256x26x128.Slices ![0, 22, 0] S256x1x128
  slices_S256x26x128_o0_23_0_S256x3x128 : S256x26x128.Slices ![0, 23, 0] S256x3x128
  broadcasts_S256x1x128_S256x3x128 : S256x1x128.Broadcasts S256x3x128
  reduces_S256x3x128_S256x3 : S256x3x128.Reduces [2] S256x3
  slices_S256x26x128_o0_23_0_S256x1x128 : S256x26x128.Slices ![0, 23, 0] S256x1x128
  slices_S256x26x128_o0_24_0_S256x2x128 : S256x26x128.Slices ![0, 24, 0] S256x2x128
  broadcasts_S256x1x128_S256x2x128 : S256x1x128.Broadcasts S256x2x128
  reduces_S256x2x128_S256x2 : S256x2x128.Reduces [2] S256x2
  slices_S256x26x128_o0_24_0_S256x1x128 : S256x26x128.Slices ![0, 24, 0] S256x1x128
  slices_S256x26x128_o0_25_0_S256x1x128 : S256x26x128.Slices ![0, 25, 0] S256x1x128
  reduces_S256x1x128_S256x1 : S256x1x128.Reduces [2] S256x1
  concatenates_S256x25_S256x24_S256x23_S256x22_S256x21_S256x20_S256x19_S256x18_S256x17_S256x16_S256x15_S256x14_S256x13_S256x12_S256x11_S256x10_S256x9_S256x8_S256x7_S256x6_S256x5_S256x4_S256x3_S256x2_S256x1_S256x325_d1 : Shape.Concatenates [S256x25, S256x24, S256x23, S256x22, S256x21, S256x20, S256x19, S256x18, S256x17, S256x16, S256x15, S256x14, S256x13, S256x12, S256x11, S256x10, S256x9, S256x8, S256x7, S256x6, S256x5, S256x4, S256x3, S256x2, S256x1] S256x325 1
  inb_S256x128_S256x128_0_0 : ∀ a, (![0, 0] : Fin 2 → Nat) a + S256x128.size a ≤ S256x128.size a
  h_S256x128 : 0 < S256x128.numel
  concatenates_S256x3328_S256x325_S256x128_S256x3781_d1 : Shape.Concatenates [S256x3328, S256x325, S256x128] S256x3781 1
  inb_S256x3781_S256x3781_0_0 : ∀ a, (![0, 0] : Fin 2 → Nat) a + S256x3781.size a ≤ S256x3781.size a
  h_S256x3781 : 0 < S256x3781.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x3328.size a ≤ S16384x3328.size a
  hwx0_0 : ∀ i : grid0.Coords, EltTy.bits .f32 = 32 ∨ (Rect.block (s := S16384x3328) S256x3328.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S16384x128.size a
  hwx0_1 : ∀ i : grid0.Coords, EltTy.bits .f32 = 32 ∨ (Rect.block (s := S16384x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x3781.size a ≤ S16384x3781.size a
  hwx0_2 : ∀ i : grid0.Coords, EltTy.bits .f32 = 32 ∨ (Rect.block (s := S16384x3781) S256x3781.size (cc0_transform_2 i) (hinb0_2 i)).WholeWords (EltTy.packing .f32)

variable [Facts₀]

abbrev win0_0 : Pipeline.Window sig grid0 :=
  Pipeline.Window.ofSpec (Memref.whole main_arg0) S256x3328.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x3781.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x3328 : Shape := ⟨2, ![16384, 3328]⟩
abbrev S16384x128 : Shape := ⟨2, ![16384, 128]⟩
abbrev S325 : Shape := ⟨1, ![325]⟩
abbrev S16384x26x128 : Shape := ⟨3, ![16384, 26, 128]⟩
abbrev S16384x26x26 : Shape := ⟨3, ![16384, 26, 26]⟩
abbrev S_ : Shape := ⟨0, ![]⟩
abbrev S325x1 : Shape := ⟨2, ![325, 1]⟩
abbrev S325x2 : Shape := ⟨2, ![325, 2]⟩
abbrev S16384x325 : Shape := ⟨2, ![16384, 325]⟩
abbrev S16384x3781 : Shape := ⟨2, ![16384, 3781]⟩

abbrev nBuf : Space → Nat
  | .hbm => 21
  | .vmem => 0
  | .smem => 0
  | _ => 0

abbrev bufTy : (tb : Table) → Fin (tcTables nBuf tb) → BufTy
  | .hbm, ⟨0, _⟩ => ⟨S16384x3328, .f32⟩
  | .hbm, ⟨1, _⟩ => ⟨S16384x128, .f32⟩
  | .hbm, ⟨2, _⟩ => ⟨S325, .i32⟩
  | .hbm, ⟨3, _⟩ => ⟨S325, .i1⟩
  | .hbm, ⟨4, _⟩ => ⟨S325, .i32⟩
  | .hbm, ⟨5, _⟩ => ⟨S325, .i1⟩
  | .hbm, ⟨6, _⟩ => ⟨S16384x26x128, .f32⟩
  | .hbm, ⟨7, _⟩ => ⟨S16384x26x26, .f32⟩
  | .hbm, ⟨8, _⟩ => ⟨S_, .i32⟩
  | .hbm, ⟨9, _⟩ => ⟨S325, .i32⟩
  | .hbm, ⟨10, _⟩ => ⟨S325, .i32⟩
  | .hbm, ⟨11, _⟩ => ⟨S325, .i32⟩
  | .hbm, ⟨12, _⟩ => ⟨S_, .i32⟩
  | .hbm, ⟨13, _⟩ => ⟨S325, .i32⟩
  | .hbm, ⟨14, _⟩ => ⟨S325, .i32⟩
  | .hbm, ⟨15, _⟩ => ⟨S325, .i32⟩
  | .hbm, ⟨16, _⟩ => ⟨S325x1, .i32⟩
  | .hbm, ⟨17, _⟩ => ⟨S325x1, .i32⟩
  | .hbm, ⟨18, _⟩ => ⟨S325x2, .i32⟩
  | .hbm, ⟨19, _⟩ => ⟨S16384x325, .f32⟩
  | .hbm, ⟨20, _⟩ => ⟨S16384x3781, .f32⟩
  | _, _ => ⟨S16384x3328, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_v0 : Ref sig .tc := ⟨.hbm, 6, rfl⟩
abbrev main_v1 : Ref sig .tc := ⟨.hbm, 7, rfl⟩
abbrev main_c_3 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c_4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  shapeCasts_S16384x3328_S16384x26x128 : S16384x3328.ShapeCasts S16384x26x128
  bcast_S_S325 : S_.BroadcastsInDim S325 (![] : Fin 0 → Fin S325.rank)
  bcast_S325_S325x1_0 : S325.BroadcastsInDim S325x1 (![0] : Fin 1 → Fin S325x1.rank)
  concatenates_S325x1_S325x1_S325x2_d1 : Shape.Concatenates [S325x1, S325x1] S325x2 1
  concatenates_S16384x3328_S16384x325_S16384x128_S16384x3781_d1 : Shape.Concatenates [S16384x3328, S16384x325, S16384x128] S16384x3781 1
  dot_S16384x26x128_S16384x26x128_S16384x26x26_2_2_1_1_0_0_wf : DotDims.WF S16384x26x128 S16384x26x128 S16384x26x26 [2] [2] [1] [1] [0] [0]
  gather_S16384x26x26_S325x2_S16384x325_0_12_n_n_12_1_1638411_wf : GatherDims.WF S16384x26x26 S325x2 S16384x325 [0] [1, 2] [] [1, 2] [] 1 ![16384, 1, 1]

variable [Facts₀]

def dot_S16384x26x128_S16384x26x128_S16384x26x26_2_2_1_1_0_0 : DotDims S16384x26x128 S16384x26x128 S16384x26x26 where
  lhsContracting := [2]
  rhsContracting := [2]
  lhsNonContracting := [1]
  rhsNonContracting := [1]
  lhsBatch := [0]
  rhsBatch := [0]
  wf := dot_S16384x26x128_S16384x26x128_S16384x26x26_2_2_1_1_0_0_wf
def gather_S16384x26x26_S325x2_S16384x325_0_12_n_n_12_1_1638411 : GatherDims S16384x26x26 S325x2 S16384x325 where
  offsetDims := [0]
  collapsedSliceDims := [1, 2]
  operandBatchingDims := []
  startIndicesBatchingDims := []
  startIndexMap := [1, 2]
  indexVectorDim := 1
  sliceSizes := ![16384, 1, 1]
  wf := gather_S16384x26x26_S325x2_S16384x325_0_12_n_n_12_1_1638411_wf

class Facts : Prop extends Facts₀ where

variable [Facts]
-- ==== Proof.Spec.lean ====
/-
  The specification both programs are proved to meet, one output row at a time.

  A row of the result is the 3328 entries of the sparse row `a0`, then the 325 pairwise dot products of its 26
  embeddings (each 128 wide: embedding `f` is the entries `128 f .. 128 f + 127`), then the 128 entries of the dense
  row `a1`. The dot products are listed in the order of the strict upper triangle of a 26 × 26 matrix read row by
  row: first (0,1) … (0,25), then (1,2) … (1,25), …, last (24,25). Position `p` of that list lies in triangle row
  `triRow p` and column `triCol p`; row `k` of the triangle starts at position `triOff k = 25 + 24 + … + (26 - k)`.
-/
import Idealize.ShloMosaic.PureOps.Ideal
import Idealize.ShloMosaic.Lib.ValueIdx

noncomputable section

namespace Cert.Interaction

open Idealize.ShloMosaic Idealize.ShloMosaic.ValueIdx

/-! ## The strict upper triangle, listed row by row -/

/-- The triangle row of list position `p`, searched from triangle row `k` on, whose `n` entries come first:
    `p` is in row `k` when `p < n`, else it is position `p - n` counted from row `k + 1`, which has `n - 1` entries. -/
def triRowFrom : Nat → Nat → Nat → Nat
  | 0, k, _ => k
  | n + 1, k, p => if p < n + 1 then k else triRowFrom n (k + 1) (p - (n + 1))

/-- The triangle column of list position `p`, by the same search: in row `k` the columns run `k + 1, k + 2, …`. -/
def triColFrom : Nat → Nat → Nat → Nat
  | 0, k, _ => k + 1
  | n + 1, k, p => if p < n + 1 then k + 1 + p else triColFrom n (k + 1) (p - (n + 1))

/-- Position `p`'s row in the strict upper triangle of a 26 × 26 matrix (the smaller index of the pair). -/
def triRowN (p : Nat) : Nat := triRowFrom 25 0 p
/-- Position `p`'s column (the larger index of the pair). -/
def triColN (p : Nat) : Nat := triColFrom 25 0 p

/-- Where triangle row `k` starts in the list: rows `0 … k - 1` hold `25, 24, …, 26 - k` entries. -/
def triOff (k : Nat) : Nat := 25 * k - k * (k - 1) / 2

/-- Every list position decomposes: its row is below 25, its column is past its row and at most 25, and it sits in
    its row at the place its column says. -/
theorem tri_decomp : ∀ p : Fin 325,
    triRowN p.val < 25 ∧ triRowN p.val + 1 ≤ triColN p.val ∧ triColN p.val ≤ 25
      ∧ triOff (triRowN p.val) + (triColN p.val - triRowN p.val - 1) = p.val := by
  decide +kernel

/-- Position `p`'s row as an embedding number (the bound holds of every position; the minimum spares a proof). -/
def triRow (p : Fin 325) : Fin 26 := ⟨min (triRowN p.val) 25, by omega⟩
/-- Position `p`'s column as an embedding number. -/
def triCol (p : Fin 325) : Fin 26 := ⟨min (triColN p.val) 25, by omega⟩

theorem triRow_val (p : Fin 325) : (triRow p).val = triRowN p.val :=
  Nat.min_eq_left (by have := (tri_decomp p).1; omega)
theorem triCol_val (p : Fin 325) : (triCol p).val = triColN p.val :=
  Nat.min_eq_left (tri_decomp p).2.2.1

/-! ## One row of the result -/

/-- Entry `d` of embedding `f` in a sparse row. -/
def embCol (f : Fin 26) (d : Fin 128) : Fin 3328 := ⟨128 * f.val + d.val, by omega⟩

/-- The dot product of embeddings `f` and `g` of the sparse row `a0`. -/
def pairDot (a0 : Fin 3328 → EReal) (f g : Fin 26) : EReal := ∑ d : Fin 128, a0 (embCol f d) * a0 (embCol g d)

/-- ONE ROW OF THE RESULT from the sparse row `a0` and the dense row `a1`: the sparse row, the pairwise dot
    products of its embeddings in triangle order, the dense row. -/
def rowG (a0 : Fin 3328 → EReal) (a1 : Fin 128 → EReal) (j : Fin 3781) : EReal :=
  if h : j.val < 3328 then a0 ⟨j.val, h⟩
  else if h2 : j.val < 3653 then pairDot a0 (triRow ⟨j.val - 3328, by omega⟩) (triCol ⟨j.val - 3328, by omega⟩)
  else a1 ⟨j.val - 3653, by omega⟩

theorem rowG_sparse (a0 : Fin 3328 → EReal) (a1 : Fin 128 → EReal) (j : Fin 3781) (h : j.val < 3328) :
    rowG a0 a1 j = a0 ⟨j.val, h⟩ := by
  unfold rowG; rw [dif_pos h]

theorem rowG_pair (a0 : Fin 3328 → EReal) (a1 : Fin 128 → EReal) (j : Fin 3781) (p : Fin 325) (hp : j.val = 3328 + p.val) :
    rowG a0 a1 j = pairDot a0 (triRow p) (triCol p) := by
  unfold rowG
  rw [dif_neg (by omega), dif_pos (by omega)]
  have e : (⟨j.val - 3328, by omega⟩ : Fin 325) = p := Fin.ext (by show j.val - 3328 = p.val; omega)
  rw [e]

theorem rowG_dense (a0 : Fin 3328 → EReal) (a1 : Fin 128 → EReal) (j : Fin 3781) (c : Fin 128) (hc : j.val = 3653 + c.val) :
    rowG a0 a1 j = a1 c := by
  unfold rowG
  rw [dif_neg (by omega), dif_neg (by omega)]
  exact congrArg a1 (Fin.ext (by show j.val - 3653 = c.val; omega))

/-! ## The whole result -/

/-- THE RESULT ARRAY as one function of the two argument arrays: row `b` is `rowG` of their rows `b`. -/
def G (A0 : (⟨2, ![16384, 3328]⟩ : Shape).Idx → EReal) (A1 : (⟨2, ![16384, 128]⟩ : Shape).Idx → EReal) :
    (⟨2, ![16384, 3781]⟩ : Shape).Idx → EReal := fun i =>
  rowG (fun c => A0 (ix2 (⟨(i 0).val, idx2_lt0 i⟩ : Fin 16384) c)) (fun c => A1 (ix2 (⟨(i 0).val, idx2_lt0 i⟩ : Fin 16384) c))
    ⟨(i 1).val, idx2_lt1 i⟩

theorem G_apply (A0 : (⟨2, ![16384, 3328]⟩ : Shape).Idx → EReal) (A1 : (⟨2, ![16384, 128]⟩ : Shape).Idx → EReal)
    (b : Fin 16384) (j : Fin 3781) :
    G A0 A1 (ix2 b j) = rowG (fun c => A0 (ix2 b c)) (fun c => A1 (ix2 b c)) j := rfl

end Cert.Interaction

end
-- ==== Proof.Chunk.lean ====
/-
  One triangle row of dot products, read at an index — the arithmetic of the kernel's body, over vectors of the
  block's literal shapes and with no program in sight.

  The body reshapes its 256 × 3328 block of sparse rows to 256 × 26 × 128 (row, embedding, lane): entry (r, f, d) is
  entry (r, 128 f + d) of the block (`emb_apply`). For each embedding `k` it takes the slice holding embedding `k`
  alone, repeats it along the embedding axis against the slice of the `n` embeddings from `k1` on, multiplies lane by
  lane and adds up the 128 lanes: at (r, q) that is the dot product of embeddings `k` and `k1 + q` of row r
  (`dotRow_apply`). Its last triangle row has one entry and needs no repetition (`dotLast_apply`).
  A lane sum from the zero accumulator is, over the extended reals, the plain sum of the lanes.
-/
import Idealize.ShloMosaic.PureOps.Ideal.Laws
import Idealize.ShloMosaic.Lib.ValueIdx
import Idealize.ShloMosaic.Lib.Pipeline.Value
import proofs.«131102_j12283606468241_1_alg».proof.Proof.Spec

noncomputable section

namespace Cert.Interaction

open Idealize.ShloMosaic Idealize.ShloMosaic.ValueIdx

/-- A block of 256 sparse rows. -/
abbrev SBlk : Shape := ⟨2, ![256, 3328]⟩
/-- The same block as 26 embeddings of 128 lanes per row. -/
abbrev SEmb : Shape := ⟨3, ![256, 26, 128]⟩
/-- One embedding per row. -/
abbrev SOne : Shape := ⟨3, ![256, 1, 128]⟩

/-- Entry (r, f, d) of the reshaped block is entry (r, 128 f + d) of the block: both sit at row-major position
    (26 r + f) 128 + d. -/
theorem emb_apply (x : SBlk.Idx → EReal) (h : SBlk.ShapeCasts SEmb) (r : Fin 256) (f : Fin 26) (d : Fin 128) :
    shapeCast SEmb x h (ix3 r f d) = x (ix2 r (embCol f d)) := by
  refine shapeCast_apply x h _ _ ?_
  rw [Shape.rowMajor_val_two, Shape.rowMajor_val_three]
  show r.val * 3328 + (128 * f.val + d.val) = (r.val * 26 + f.val) * 128 + d.val
  omega

/-- The reduced index (r, q) with lane d put back on the summed axis is (r, q, d). -/
theorem lift_lane (n : Nat) (hr : (⟨3, ![256, n, 128]⟩ : Shape).Reduces [2] ⟨2, ![256, n]⟩) (r : Fin 256) (q : Fin n)
    (d : Fin 128) : hr.lift (ix2 r q) d = ix3 r q d := by
  funext c
  apply Fin.ext
  show hr.liftVal (ix2 r q) d.val c = (ix3 r q d c).val
  unfold Shape.Reduces.liftVal
  match c with
  | ⟨0, _⟩ => rfl
  | ⟨1, _⟩ => rfl
  | ⟨2, _⟩ => rfl

/-- Embedding `k` alone, at (r, 0, d). -/
theorem sliceOne_apply (k : Nat) (hk : k < 26) (v : SEmb.Idx → EReal) (hs : SEmb.Slices ![0, k, 0] SOne)
    (r : Fin 256) (d : Fin 128) :
    extractStridedSlice SOne ![0, k, 0] v hs (ix3 r (0 : Fin 1) d) = v (ix3 r ⟨k, hk⟩ d) :=
  extractStridedSlice_apply _ v hs _ _ fun a => by
    match a with
    | ⟨0, _⟩ => show r.val = 0 + r.val; omega
    | ⟨1, _⟩ => show k = k + 0; omega
    | ⟨2, _⟩ => show d.val = 0 + d.val; omega

/-- The `n` embeddings from `k1` on, at (r, q, d). -/
theorem sliceFrom_apply (n k1 : Nat) (hk1 : k1 + n ≤ 26) (v : SEmb.Idx → EReal)
    (hs : SEmb.Slices ![0, k1, 0] ⟨3, ![256, n, 128]⟩) (r : Fin 256) (q : Fin n) (d : Fin 128) :
    extractStridedSlice (⟨3, ![256, n, 128]⟩ : Shape) ![0, k1, 0] v hs (ix3 r q d)
      = v (ix3 r ⟨k1 + q.val, by omega⟩ d) :=
  extractStridedSlice_apply _ v hs _ _ fun a => by
    match a with
    | ⟨0, _⟩ => show r.val = 0 + r.val; omega
    | ⟨1, _⟩ => rfl
    | ⟨2, _⟩ => show d.val = 0 + d.val; omega

/-- ONE TRIANGLE ROW: embedding `k` against the `n` embeddings from `k1` on, lane products summed: at (r, q) the dot
    product of embeddings `k` and `k1 + q` of row r. -/
theorem dotRow_apply (n k k1 : Nat) (hk : k < 26) (hk1 : k1 + n ≤ 26) (v : FVec Ideal SEmb .f32)
    (hs1 : SEmb.Slices ![0, k, 0] SOne) (hs2 : SEmb.Slices ![0, k1, 0] ⟨3, ![256, n, 128]⟩)
    (hb : SOne.Broadcasts ⟨3, ![256, n, 128]⟩) (hr : (⟨3, ![256, n, 128]⟩ : Shape).Reduces [2] ⟨2, ![256, n]⟩)
    (hφ : FKind.Formats .f32) (hacc : (0x00000000#32 : BitVec FTy.f32.bits) = FKind.add.neutral .f32 hφ)
    (r : Fin 256) (q : Fin n) :
    multiReduction .add [2] (⟨2, ![256, n]⟩ : Shape)
        (mulf (broadcastTo (⟨3, ![256, n, 128]⟩ : Shape) (extractStridedSlice SOne ![0, k, 0] v hs1) hb)
          (extractStridedSlice (⟨3, ![256, n, 128]⟩ : Shape) ![0, k1, 0] v hs2))
        0x00000000#32 hr hφ hacc (ix2 r q)
      = ∑ d : Fin 128, v (ix3 r ⟨k, hk⟩ d) * v (ix3 r ⟨k1 + q.val, by omega⟩ d) := by
  refine (Ideal.multiReduction_add_single _ 0x00000000#32 hr hφ hacc (ix2 r q)).trans ?_
  show (∑ d : Fin 128, _) = _
  refine Finset.sum_congr rfl fun d _ => ?_
  refine (congrArg (mulf _ _) (lift_lane n hr r q d)).trans ?_
  refine (mulf_apply _ _ _).trans ?_
  refine congrArg₂ (· * ·) ?_ (sliceFrom_apply n k1 hk1 v hs2 r q d)
  refine (broadcastTo_apply _ hb (ix3 r q d) (ix3 r (0 : Fin 1) d) fun a => ?_).trans (sliceOne_apply k hk v hs1 r d)
  match a with
  | ⟨0, _⟩ => rfl
  | ⟨1, _⟩ => rfl
  | ⟨2, _⟩ => rfl

/-- THE LAST TRIANGLE ROW: one embedding against one, no repetition. -/
theorem dotLast_apply (k k1 : Nat) (hk : k < 26) (hk1 : k1 + 1 ≤ 26) (v : FVec Ideal SEmb .f32)
    (hs1 : SEmb.Slices ![0, k, 0] SOne) (hs2 : SEmb.Slices ![0, k1, 0] SOne)
    (hr : SOne.Reduces [2] ⟨2, ![256, 1]⟩)
    (hφ : FKind.Formats .f32) (hacc : (0x00000000#32 : BitVec FTy.f32.bits) = FKind.add.neutral .f32 hφ)
    (r : Fin 256) (q : Fin 1) :
    multiReduction .add [2] (⟨2, ![256, 1]⟩ : Shape)
        (mulf (extractStridedSlice SOne ![0, k, 0] v hs1) (extractStridedSlice SOne ![0, k1, 0] v hs2))
        0x00000000#32 hr hφ hacc (ix2 r q)
      = ∑ d : Fin 128, v (ix3 r ⟨k, hk⟩ d) * v (ix3 r ⟨k1 + q.val, by omega⟩ d) := by
  refine (Ideal.multiReduction_add_single _ 0x00000000#32 hr hφ hacc (ix2 r q)).trans ?_
  show (∑ d : Fin 128, _) = _
  refine Finset.sum_congr rfl fun d _ => ?_
  refine (congrArg (mulf _ _) (lift_lane 1 hr r q d)).trans ?_
  refine (mulf_apply _ _ _).trans ?_
  obtain rfl : q = 0 := Subsingleton.elim _ _
  exact congrArg₂ (· * ·) (sliceOne_apply k hk v hs1 r d) (sliceFrom_apply 1 k1 hk1 v hs2 r 0 d)

end Cert.Interaction

end
-- ==== Proof.KernelPayload.lean ====
/-
  What the kernel's body stores, read at an index: row r of the stored 256 × 3781 block is `rowG` of row r of the
  sparse block and row r of the dense block.

  The body's one store holds the concatenation, along the columns, of the sparse block, the 256 × 325 block of
  pairwise dot products, and the dense block. The dot products are themselves a concatenation of 25 pieces of widths
  25, 24, …, 1: piece `k` is triangle row `k`, the dot products of embedding `k` with embeddings `k + 1 … 25`, so
  column `triOff k + q` of the 325 holds the pair (k, k + 1 + q) — the same pair the specification's `triRow`,
  `triCol` give that column.
-/
import proofs.«131102_j12283606468241_1_alg».proof.Proof.Gen.KernelIdeal.Frame
import proofs.«131102_j12283606468241_1_alg».proof.Proof.Chunk

noncomputable section

namespace Cert.KernelIdeal.Body

open Cert.KernelIdeal Cert.KernelIdeal.Gen Cert.Interaction Idealize.ShloMosaic Idealize.ShloMosaic.ValueIdx

theorem origin : (![0, 0] : Fin 2 → Nat) = fun _ => 0 := funext fun a => by fin_cases a <;> rfl

/-- The sparse block as 26 embeddings of 128 lanes per row. -/
abbrev emb (x0 : Vec Ideal S256x3328 .f32) : FVec Ideal S256x26x128 .f32 := k0_pay4 (F := Ideal) x0

/-- The 256 × 325 block of pairwise dot products, as the body computes it from the sparse block. -/
abbrev inter (x0 : Vec Ideal S256x3328 .f32) : FVec Ideal S256x325 .f32 :=
  k0_pay2 (F := Ideal) (k0_pay4 x0) (k0_pay5 x0) (k0_pay6 x0) (k0_pay7 x0) (k0_pay8 x0) (k0_pay9 x0) (k0_pay10 x0) (k0_pay11 x0)
    (k0_pay12 x0) (k0_pay13 x0) (k0_pay15 (k0_pay4 x0) (k0_pay14 x0)) (k0_pay16 (k0_pay4 x0)) (k0_pay17 (k0_pay4 x0))
    (k0_pay18 (k0_pay4 x0)) (k0_pay19 (k0_pay4 x0)) (k0_pay20 (k0_pay4 x0)) (k0_pay21 (k0_pay4 x0)) (k0_pay22 (k0_pay4 x0))
    (k0_pay23 (k0_pay4 x0)) (k0_pay24 (k0_pay4 x0)) (k0_pay1 (k0_pay4 x0) (k0_pay25 (k0_pay4 x0)))

/-- The stored block is the concatenation of the sparse block, the dot products and the dense block: the one store
    covers the buffer, and a load of a whole buffer is the buffer. -/
theorem out_eq (x0 : Vec Ideal S256x3328 .f32) (x1 : Vec Ideal S256x128 .f32) :
    out0_2 (F := Ideal) x0 x1 = k0_pay3 (F := Ideal) x0 (inter x0) x1 := by
  unfold out0_2
  rw [View.canon_unit_zero origin]
  simp only [View.ld_unit_zero (S := S256x3328) origin, View.ld_unit_zero (S := S256x128) origin]

/-- A concatenation along the columns of pieces of 256 rows, read at (r, p): piece `K`, which starts at column `pre`,
    at (r, q) when `p = pre + q`. -/
theorem piece_apply {W : Nat} (xs : List ((s : Shape) × (s.Idx → EReal)))
    (h : Shape.Concatenates (xs.map (·.1)) (⟨2, ![256, W]⟩ : Shape) (1 : Fin 2)) (r : Fin 256) (p : Fin W)
    (K n L : Nat) (hL : xs.length = L) (hK : K < L) (c : (⟨2, ![256, n]⟩ : Shape).Idx → EReal)
    (hx : xs[K]'(hL ▸ hK) = ⟨⟨2, ![256, n]⟩, c⟩) (pre : Nat)
    (hpre : (((xs.take K).map (·.1)).map fun s : Shape =>
        if h : s.rank = (⟨2, ![256, W]⟩ : Shape).rank then s.size ((1 : Fin 2).cast h.symm) else 0).sum = pre)
    (q : Fin n) (hp : pre + q.val = p.val) :
    concatenate (⟨2, ![256, W]⟩ : Shape) (1 : Fin 2) xs h (ix2 r p) = c (ix2 r q) :=
  concatenate_apply_piece (t := (⟨2, ![256, W]⟩ : Shape)) (1 : Fin 2) xs h (ix2 r p) K (hL ▸ hK) (⟨2, ![256, n]⟩ : Shape) c hx rfl
    pre hpre (ix2 r q)
    (fun b hb => by
      match b with
      | ⟨0, _⟩ => rfl
      | ⟨1, _⟩ => exact absurd rfl hb)
    hp

/-- The shapes of the 25 pieces of the dot products: 256 rows, widths 25, 24, …, 1. -/
def triShapes : List Shape := (List.range 25).map fun k => (⟨2, ![256, 25 - k]⟩ : Shape)

/-- The widths of the pieces before piece `K` add up to `triOff K`. -/
theorem triShapes_pre : ∀ K : Fin 25, ((triShapes.take K.val).map fun s : Shape =>
    if h : s.rank = (⟨2, ![256, 325]⟩ : Shape).rank then s.size ((1 : Fin 2).cast h.symm) else 0).sum = triOff K.val := by
  decide +kernel

/-- The same for the 325 columns of dot products, where piece `K` starts at column `triOff K`. -/
theorem tri_piece_apply (xs : List ((s : Shape) × (s.Idx → EReal)))
    (h : Shape.Concatenates (xs.map (·.1)) (⟨2, ![256, 325]⟩ : Shape) (1 : Fin 2)) (r : Fin 256) (p : Fin 325)
    (K n : Nat) (hL : xs.length = 25) (hsh : xs.map (·.1) = triShapes) (hK : K < 25)
    (c : (⟨2, ![256, n]⟩ : Shape).Idx → EReal) (hx : xs[K]'(hL ▸ hK) = ⟨⟨2, ![256, n]⟩, c⟩)
    (q : Fin n) (hp : triOff K + q.val = p.val) :
    concatenate (⟨2, ![256, 325]⟩ : Shape) (1 : Fin 2) xs h (ix2 r p) = c (ix2 r q) :=
  piece_apply xs h r p K n 25 hL hK c hx (triOff K) (by rw [List.map_take, hsh]; exact triShapes_pre ⟨K, hK⟩) q hp

set_option maxHeartbeats 1600000 in
/-- COLUMN `triOff k + q` OF THE DOT PRODUCTS is the dot product of embeddings `k` and `k + 1 + q` of the row: it lies
    in piece `k` of the 25, at place `q`, and piece `k` is triangle row `k`. -/
theorem inter_apply (x0 : Vec Ideal S256x3328 .f32) (r : Fin 256) (k : Nat) (hk : k < 25) (q : Nat) (hq : q < 25 - k)
    (p : Fin 325) (hp : p.val = triOff k + q) :
    inter x0 (ix2 r p)
      = ∑ d : Fin 128, emb x0 (ix3 r ⟨k, by omega⟩ d) * emb x0 (ix3 r ⟨k + 1 + q, by omega⟩ d) := by
  unfold inter k0_pay2 k0_pay1 k0_pay14 k0_pay25
  interval_cases k <;>
    (refine (tri_piece_apply _ _ r p _ _ rfl (by rfl) (by omega) _ (by rfl) ⟨q, by omega⟩ hp.symm).trans ?_
     first
       | exact dotLast_apply _ _ (by omega) (by omega) (emb x0) _ _ _ (.inl rfl) rfl r ⟨q, by omega⟩
       | exact dotRow_apply _ _ _ (by omega) (by omega) (emb x0) _ _ _ _ (.inl rfl) rfl r ⟨q, by omega⟩)

/-- So column `p` of the dot products is the pair the specification gives it. -/
theorem inter_pair (x0 : Vec Ideal S256x3328 .f32) (r : Fin 256) (p : Fin 325) :
    inter x0 (ix2 r p) = pairDot (fun c => x0 (ix2 r c)) (triRow p) (triCol p) := by
  obtain ⟨h1, h2, h3, h4⟩ := tri_decomp p
  refine (inter_apply x0 r (triRowN p.val) h1 (triColN p.val - triRowN p.val - 1) (by omega) p h4.symm).trans ?_
  unfold pairDot
  refine Finset.sum_congr rfl fun d _ => ?_
  have e1 : (⟨triRowN p.val, by omega⟩ : Fin 26) = triRow p := Fin.ext (triRow_val p).symm
  have e2 : (⟨triRowN p.val + 1 + (triColN p.val - triRowN p.val - 1), by omega⟩ : Fin 26) = triCol p :=
    Fin.ext (by rw [triCol_val]; show triRowN p.val + 1 + (triColN p.val - triRowN p.val - 1) = triColN p.val; omega)
  rw [e1, e2]
  exact congrArg₂ (· * ·) (emb_apply x0 _ r _ d) (emb_apply x0 _ r _ d)

/-- ROW r OF THE STORED BLOCK is `rowG` of row r of the sparse block and row r of the dense block. -/
theorem out_apply (x0 : Vec Ideal S256x3328 .f32) (x1 : Vec Ideal S256x128 .f32) (r : Fin 256) (j : Fin 3781) :
    out0_2 (F := Ideal) x0 x1 (ix2 r j) = rowG (fun c => x0 (ix2 r c)) (fun c => x1 (ix2 r c)) j := by
  rw [out_eq]
  unfold k0_pay3
  by_cases h1 : j.val < 3328
  · rw [rowG_sparse _ _ j h1]
    exact piece_apply _ _ r j 0 3328 3 rfl (by omega) x0 rfl 0 rfl ⟨j.val, h1⟩ (by show 0 + j.val = j.val; omega)
  · by_cases h2 : j.val < 3653
    · rw [rowG_pair _ _ j ⟨j.val - 3328, by omega⟩ (by show j.val = 3328 + (j.val - 3328); omega)]
      exact (piece_apply _ _ r j 1 325 3 rfl (by omega) (inter x0) rfl 3328 rfl ⟨j.val - 3328, by omega⟩
        (by show 3328 + (j.val - 3328) = j.val; omega)).trans (inter_pair x0 r _)
    · have hj := j.isLt
      rw [rowG_dense _ _ j ⟨j.val - 3653, by omega⟩ (by show j.val = 3653 + (j.val - 3653); omega)]
      exact piece_apply _ _ r j 2 128 3 rfl (by omega) x1 rfl 3653 rfl ⟨j.val - 3653, by omega⟩
        (by show 3653 + (j.val - 3653) = j.val; omega)

end Cert.KernelIdeal.Body

end
-- ==== Proof.KernelValue.lean ====
/-
  The result array of the kernel's run is `G` of the two argument arrays.

  The grid has 64 points; point `t` stages rows `256 t … 256 t + 255` of each array (block row `t`, block column 0 for
  all three windows) and writes back the body's stored block. Row r of that block is `rowG` of rows r of the staged
  sparse and dense blocks, that is of rows `256 t + r` of the arrays — block `t` of `G`. Row `b` of the result lies in
  the block of point `b / 256`, so the blocks cover the array and it ends holding `G` everywhere.
-/
import proofs.«131102_j12283606468241_1_alg».proof.Proof.Gen.KernelIdeal.Value
import proofs.«131102_j12283606468241_1_alg».proof.Proof.KernelPayload

noncomputable section

namespace Cert.KernelIdeal.Whole

open Cert.KernelIdeal Cert.KernelIdeal.Gen Cert.KernelIdeal.Body Cert.Interaction
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The printed index maps, decided over the 64 points: every window's block row is the point's number, its block
    column 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Row `256 t + r` of an array of 16384 rows. -/
def rowOf (t : Fin cfg0.N) (r : Fin 256) : Fin 16384 := ⟨t.val * 256 + r.val, by have : t.val < 64 := t.isLt; omega⟩

/-- Entry (r, c) of the sparse block at point `t` sits at (256 t + r, c) in the array. -/
theorem emb0 (t : Fin cfg0.N) (r : Fin 256) (c : Fin 3328) : ((cfg0.win 0).blk t).view.emb (ix2 r c) = ix2 (rowOf t r) c := by
  obtain ⟨e0, e1, -, -, -, -⟩ := idx_facts t
  funext a; apply Fin.ext
  match a with
  | ⟨0, _⟩ => show win0_0.index t (0 : Fin 2) * 256 + 1 * r.val = t.val * 256 + r.val; omega
  | ⟨1, _⟩ => show win0_0.index t (1 : Fin 2) * 3328 + 1 * c.val = c.val; omega

/-- Entry (r, c) of the dense block at point `t` sits at (256 t + r, c) in the array. -/
theorem emb1 (t : Fin cfg0.N) (r : Fin 256) (c : Fin 128) : ((cfg0.win 1).blk t).view.emb (ix2 r c) = ix2 (rowOf t r) c := by
  obtain ⟨-, -, e2, e3, -, -⟩ := idx_facts t
  funext a; apply Fin.ext
  match a with
  | ⟨0, _⟩ => show win0_1.index t (0 : Fin 2) * 256 + 1 * r.val = t.val * 256 + r.val; omega
  | ⟨1, _⟩ => show win0_1.index t (1 : Fin 2) * 128 + 1 * c.val = c.val; omega

/-- Entry (r, j) of the result block at point `t` sits at (256 t + r, j) in the array. -/
theorem emb2 (t : Fin cfg0.N) (r : Fin 256) (j : Fin 3781) : ((cfg0.win 2).blk t).view.emb (ix2 r j) = ix2 (rowOf t r) j := by
  obtain ⟨-, -, -, -, e4, e5⟩ := idx_facts t
  funext a; apply Fin.ext
  match a with
  | ⟨0, _⟩ => show win0_2.index t (0 : Fin 2) * 256 + 1 * r.val = t.val * 256 + r.val; omega
  | ⟨1, _⟩ => show win0_2.index t (1 : Fin 2) * 3781 + 1 * j.val = j.val; omega

/-- WHAT POINT `t` WRITES BACK is block `t` of `G` of the argument arrays. -/
theorem flushed_eq (c : Dev nD) (t : Fin cfg0.N) :
    (dats m 0 c).flushed 2 t
      = ((cfg0.win 2).blk t).view.read (Elt Ideal) (G (V m c main_arg0) (V m c main_arg1)) := by
  rw [Value.flushed2]
  refine funext fun (y : S256x3781.Idx) => ?_
  obtain ⟨r, j, rfl⟩ : ∃ (r : Fin 256) (j : Fin 3781), y = ix2 r j := ⟨y 0, y 1, eq_ix2 y⟩
  show out0_2 (F := Ideal) (iblk m c 0 t) (iblk m c 1 t) (ix2 r j)
    = G (V m c main_arg0) (V m c main_arg1) (((cfg0.win 2).blk t).view.emb (ix2 r j))
  refine (out_apply (iblk m c 0 t) (iblk m c 1 t) r j).trans ?_
  rw [emb2 t r j, G_apply]
  refine congrArg₂ (fun a0 a1 => rowG a0 a1 j) (funext fun c' => ?_) (funext fun c' => ?_)
  · show V m c main_arg0 (((cfg0.win 0).blk t).view.emb (ix2 r c')) = V m c main_arg0 (ix2 (rowOf t r) c')
    rw [emb0 t r c']
  · show V m c main_arg1 (((cfg0.win 1).blk t).view.emb (ix2 r c')) = V m c main_arg1 (ix2 (rowOf t r) c')
    rw [emb1 t r c']

/-- An index of the result array is in point `t`'s block iff each coordinate is in the block's range on its axis. -/
theorem mem_blk (t : Fin cfg0.N) (i : S16384x3781.Idx) :
    i ∈ ((cfg0.win 2).blk t).view.set ↔ ∀ a : Fin 2, win0_2.index t a * S256x3781.size a ≤ (i a).val
      ∧ (i a).val < win0_2.index t a * S256x3781.size a + S256x3781.size a := by
  show i ∈ ((View.whole main_v0).slice (win0_2.rect t)).set ↔ _
  rw [View.set_slice_whole, Rect.mem_set_unit]
  exact Iff.rfl

/-- Every index of the result array is in the block of the point its row falls in. -/
theorem cover (i : S16384x3781.Idx) :
    ∃ t : Fin cfg0.N, (cfg0.win 2).flush t = true ∧ i ∈ ((cfg0.win 2).blk t).view.set := by
  have hi0 : (i 0).val < 16384 := (i 0).isLt
  have hi1 : (i 1).val < 3781 := (i 1).isLt
  refine ⟨⟨(i 0).val / 256, by show (i 0).val / 256 < 64; omega⟩, flush0_2 _, ?_⟩
  rw [mem_blk]
  obtain ⟨-, -, -, -, e4, e5⟩ := idx_facts ⟨(i 0).val / 256, by show (i 0).val / 256 < 64; omega⟩
  intro a
  match a with
  | ⟨0, _⟩ =>
    show win0_2.index _ (0 : Fin 2) * 256 ≤ (i 0).val ∧ (i 0).val < win0_2.index _ (0 : Fin 2) * 256 + 256
    rw [e4]; show (i 0).val / 256 * 256 ≤ (i 0).val ∧ (i 0).val < (i 0).val / 256 * 256 + 256; omega
  | ⟨1, _⟩ =>
    show win0_2.index _ (1 : Fin 2) * 3781 ≤ (i 1).val ∧ (i 1).val < win0_2.index _ (1 : Fin 2) * 3781 + 3781
    rw [e5]; omega

/-- THE RESULT ARRAY after the run is `G` of the argument arrays. -/
theorem final (c : Dev nD) :
    (dats m 0 c).arrAt 2 cfg0.N = G (m ((c : Thread nD τ).loc main_arg0)) (m ((c : Thread nD τ).loc main_arg1)) :=
  (dats m 0 c).arrAt_eq_of_cover 2 (G (V m c main_arg0) (V m c main_arg1)) (fun t _ => flushed_eq m c t) cover

/-- The kernel's run, read: the result array at `G` of the arguments, the arguments unchanged. -/
theorem run : θ_run (defs (F := Ideal)) (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.RefRun.lean ====
/-
  The reference program's run. Its @main is a straight line of 19 host operations; from any launch memory every
  weakly fair execution ends, and the result buffer then holds a composed term of the two argument arrays. That
  term is stated here over named stages (the index array, the Gram matrices, the gathered pairs, the concatenated
  rows), so that the value proof reads one stage at a time.
-/
import proofs.«131102_j12283606468241_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- One index table made ready for the gather: 26 is added to an entry where the mask is set (the wrap of a
    negative index; the mask is nowhere set), and the 325 entries become a column. -/
def column (t : IVec S325 32) : IVec S325x1 32 :=
  broadcastInDim S325x1 ![0] bcast_S325_S325x1_0
    (select (constantI S325 1 0#1) (addi t (broadcastInDim S325 ![] bcast_S_S325 (constantI S_ 32 26#32))) t)

/-- The table of the smaller embedding number of each pair, as the program holds it. -/
def rowTable : IVec S325 32 := fun i => lit0 (S325.rowMajor i)
/-- The table of the larger embedding number of each pair. -/
def colTable : IVec S325 32 := fun i => lit1 (S325.rowMajor i)

/-- The gather's start indices from two tables: row p holds entry p of each. -/
def pairIdxOf (t0 t1 : IVec S325 32) : IVec S325x2 32 :=
  concatenate S325x2 1 [⟨S325x1, column t0⟩, ⟨S325x1, column t1⟩] concatenates_S325x1_S325x1_S325x2_d1

/-- The gather's start indices: row p holds the two embedding numbers of pair p. -/
def pairIdx : IVec S325x2 32 := pairIdxOf rowTable colTable

/-- The sparse rows cut into 26 embeddings of 128 entries. -/
def emb (x : (⟨S16384x3328, .f32⟩ : BufTy).Contents (Elt F)) : (⟨S16384x26x128, .f32⟩ : BufTy).Contents (Elt F) :=
  shapeCast _ x shapeCasts_S16384x3328_S16384x26x128

/-- Per row, the 26 × 26 matrix of dot products of its embeddings. -/
def gram (x : (⟨S16384x3328, .f32⟩ : BufTy).Contents (Elt F)) : (⟨S16384x26x26, .f32⟩ : BufTy).Contents (Elt F) :=
  Host.dotGeneral dot_S16384x26x128_S16384x26x128_S16384x26x26_2_2_1_1_0_0 none (emb x) (emb x)

/-- Per row, the entries of the Gram matrix a start-index array picks. -/
def pairsOf (idx : IVec S325x2 32) (x : (⟨S16384x3328, .f32⟩ : BufTy).Contents (Elt F)) : (⟨S16384x325, .f32⟩ : BufTy).Contents (Elt F) :=
  Host.gather gather_S16384x26x26_S325x2_S16384x325_0_12_n_n_12_1_1638411 (gram x) idx

/-- Per row, the 325 dot products of the pairs, in the tables' order. -/
def pairs (x : (⟨S16384x3328, .f32⟩ : BufTy).Contents (Elt F)) : (⟨S16384x325, .f32⟩ : BufTy).Contents (Elt F) :=
  pairsOf pairIdx x

/-- The result from a middle block: per row the sparse row, then the middle block's row, then the dense row. -/
def outOf (x : (⟨S16384x3328, .f32⟩ : BufTy).Contents (Elt F)) (mid : (⟨S16384x325, .f32⟩ : BufTy).Contents (Elt F))
    (y : (⟨S16384x128, .f32⟩ : BufTy).Contents (Elt F)) : (⟨S16384x3781, .f32⟩ : BufTy).Contents (Elt F) :=
  concatenate S16384x3781 1 [⟨S16384x3328, x⟩, ⟨S16384x325, mid⟩, ⟨S16384x128, y⟩]
    concatenates_S16384x3328_S16384x325_S16384x128_S16384x3781_d1

/-- The result: per row the sparse row, then its pairs, then the dense row. -/
def out (x : (⟨S16384x3328, .f32⟩ : BufTy).Contents (Elt F)) (y : (⟨S16384x128, .f32⟩ : BufTy).Contents (Elt F)) :
    (⟨S16384x3781, .f32⟩ : BufTy).Contents (Elt F) :=
  outOf x (pairs x) y

/-! ## The run -/

/-- @main's 19 operations, in order, with the two constant tables as parameters. -/
abbrev opsOf (t0 t1 : IVec S325 32) : List (HloOp τ sig (Elt F)) :=
  [ nullary main_c t0,
    nullary main_c_0 (constantI S325 1 0#1),
    nullary main_c_1 t1,
    nullary main_c_2 (constantI S325 1 0#1),
    reshape main_arg0 main_v0 rfl shapeCasts_S16384x3328_S16384x26x128,
    binary main_v0 main_v0 main_v1 ((fun l r => Host.dotGeneral dot_S16384x26x128_S16384x26x128_S16384x26x26_2_2_1_1_0_0 none l r) : (⟨S16384x26x128, .f32⟩ : BufTy).Contents (Elt F) → (⟨S16384x26x128, .f32⟩ : BufTy).Contents (Elt F) → (⟨S16384x26x26, .f32⟩ : BufTy).Contents (Elt F)),
    nullary main_c_3 (constantI S_ 32 26#32),
    unary main_c_3 main_v2 (broadcastInDim S325 ![] bcast_S_S325 : (⟨S_, .i32⟩ : BufTy).Contents (Elt F) → (⟨S325, .i32⟩ : BufTy).Contents (Elt F)),
    binary main_c main_v2 main_v3 (addi : (⟨S325, .i32⟩ : BufTy).Contents (Elt F) → (⟨S325, .i32⟩ : BufTy).Contents (Elt F) → (⟨S325, .i32⟩ : BufTy).Contents (Elt F)),
    ternary main_c_0 main_v3 main_c main_v4 (select : (⟨S325, .i1⟩ : BufTy).Contents (Elt F) → (⟨S325, .i32⟩ : BufTy).Contents (Elt F) → (⟨S325, .i32⟩ : BufTy).Contents (Elt F) → (⟨S325, .i32⟩ : BufTy).Contents (Elt F)),
    nullary main_c_4 (constantI S_ 32 26#32),
    unary main_c_4 main_v5 (broadcastInDim S325 ![] bcast_S_S325 : (⟨S_, .i32⟩ : BufTy).Contents (Elt F) → (⟨S325, .i32⟩ : BufTy).Contents (Elt F)),
    binary main_c_1 main_v5 main_v6 (addi : (⟨S325, .i32⟩ : BufTy).Contents (Elt F) → (⟨S325, .i32⟩ : BufTy).Contents (Elt F) → (⟨S325, .i32⟩ : BufTy).Contents (Elt F)),
    ternary main_c_2 main_v6 main_c_1 main_v7 (select : (⟨S325, .i1⟩ : BufTy).Contents (Elt F) → (⟨S325, .i32⟩ : BufTy).Contents (Elt F) → (⟨S325, .i32⟩ : BufTy).Contents (Elt F) → (⟨S325, .i32⟩ : BufTy).Contents (Elt F)),
    unary main_v4 main_v8 (broadcastInDim S325x1 ![0] bcast_S325_S325x1_0 : (⟨S325, .i32⟩ : BufTy).Contents (Elt F) → (⟨S325x1, .i32⟩ : BufTy).Contents (Elt F)),
    unary main_v7 main_v9 (broadcastInDim S325x1 ![0] bcast_S325_S325x1_0 : (⟨S325, .i32⟩ : BufTy).Contents (Elt F) → (⟨S325x1, .i32⟩ : BufTy).Contents (Elt F)),
    binary main_v8 main_v9 main_v10 ((fun a b => concatenate S325x2 1 [⟨S325x1, a⟩, ⟨S325x1, b⟩] concatenates_S325x1_S325x1_S325x2_d1) : (⟨S325x1, .i32⟩ : BufTy).Contents (Elt F) → (⟨S325x1, .i32⟩ : BufTy).Contents (Elt F) → (⟨S325x2, .i32⟩ : BufTy).Contents (Elt F)),
    binary main_v1 main_v10 main_v11 ((fun x i => Host.gather gather_S16384x26x26_S325x2_S16384x325_0_12_n_n_12_1_1638411 x i) : (⟨S16384x26x26, .f32⟩ : BufTy).Contents (Elt F) → (⟨S325x2, .i32⟩ : BufTy).Contents (Elt F) → (⟨S16384x325, .f32⟩ : BufTy).Contents (Elt F)),
    nary ![main_arg0, main_v11, main_arg1] main_v12 (fun u => concatenate S16384x3781 1 [⟨S16384x3328, u 0⟩, ⟨S16384x325, u 1⟩, ⟨S16384x128, u 2⟩] concatenates_S16384x3328_S16384x325_S16384x128_S16384x3781_d1) ]

/-- @main's 19 operations: the list above at the program's two tables. -/
abbrev ops : List (HloOp τ sig (Elt F)) := opsOf rowTable colTable

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., nullary_bufs_sub .., reshape_bufs_sub .., binary_bufs_sub ..,
    nullary_bufs_sub .., unary_bufs_sub .., binary_bufs_sub .., ternary_bufs_sub ..,
    nullary_bufs_sub .., unary_bufs_sub .., binary_bufs_sub .., ternary_bufs_sub ..,
    unary_bufs_sub .., unary_bufs_sub .., binary_bufs_sub .., binary_bufs_sub .., nary_bufs_sub ..⟩

/-- The result of an operation of three operands, with each operand's contents read at its own reference. -/
theorem nary3_result {x a b y : Ref sig .tc}
    (f : ((k : Fin 3) → ((![x, a, b] : Fin 3 → Ref sig .tc) k).ty.Contents (Elt F)) → y.ty.Contents (Elt F)) (hxs hy)
    (V : Valuation τ sig (Elt F)) :
    (nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [nary_result]; congr 1; funext k; fin_cases k <;> rfl

/-- What the result buffer holds after the 19 operations over any two tables, from contents V. -/
theorem after_outOf (t0 t1 : IVec S325 32) (V : Valuation τ sig (Elt F)) :
    after (opsOf (F := F) t0 t1) V (Proc.devRef .tc main_v12)
      = outOf (V (Proc.devRef .tc main_arg0)) (pairsOf (pairIdxOf t0 t1) (V (Proc.devRef .tc main_arg0))) (V (Proc.devRef .tc main_arg1)) := by
  simp only [after_cons, after_nil]
  rw [nary3_result]
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl

/-- What the result buffer holds after the program's 19 operations, from contents V. -/
theorem after_out (V : Valuation τ sig (Elt F)) :
    after (ops (F := F)) V (Proc.devRef .tc main_v12) = out (V (Proc.devRef .tc main_arg0)) (V (Proc.devRef .tc main_arg1)) :=
  after_outOf rowTable colTable V

/-- On the device, from any memory with zero counters: every weakly fair execution of @main terminates with
    the result buffer at out of the two arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v12) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v12).trans (after_out _),
      (h c main_arg0).trans (by after_results),
      (h c main_arg1).trans (by after_results)⟩)
    (run_seq scopedRefs_eq scopedSems_eq defs main (fun _ => ops) main_eq (fun _ => ops_sub) m ρ)

end Cert.ReferenceIdeal.RefRun

end
-- ==== Proof.RefValue.lean ====
/-
  The value of the reference program's result, index by index: row b of the result is the sparse row b, then the
  dot products of its embeddings taken pair by pair in the order of the strict upper triangle, then the dense row b —
  the function G of the specification. Each stage of the run is read at one index: the start indices of the gather are
  the two tables' entries, the gather at (b, p) reads the Gram matrix at the p-th pair of embedding numbers, the Gram
  matrix at (b, f, g) is the sum over the 128 entries of the products of embeddings f and g of row b, and the outer
  concatenation picks one of its three pieces by the column's range.
-/
import proofs.«131102_j12283606468241_1_alg».proof.Proof.Spec
import proofs.«131102_j12283606468241_1_alg».proof.Proof.RefRun
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem
open Idealize.ShloMosaic.ValueIdx Cert.ReferenceIdeal.RefRun Cert.Interaction
open scoped BigOperators

/-! ## The start indices -/

/-- A table made a column reads the table: the mask is nowhere set, so nothing is added. -/
theorem column_apply (t : IVec S325 32) (p : Fin 325) (z : Fin 1) : column t (ix2 p z) = t (ix1 p) := by
  unfold column
  rw [broadcastInDim_apply (![0] : Fin 1 → Fin S325x1.rank) bcast_S325_S325x1_0 _ (ix2 p z) (ix1 p) (fun a => by
    match a with
    | ⟨0, _⟩ => rfl)]
  rw [select_apply]
  exact select_zero _ _

/-- Row p of the start indices holds, first, entry p of the first table … -/
theorem pairIdxOf_apply0 (t0 t1 : IVec S325 32) (p : Fin 325) : pairIdxOf t0 t1 (ix2 p (0 : Fin 2)) = t0 (ix1 p) := by
  unfold pairIdxOf
  rw [concatenate_pair_apply_left (1 : Fin S325x2.rank) (column t0) (column t1) concatenates_S325x1_S325x1_S325x2_d1
    (ix2 p (0 : Fin 2)) rfl (ix2 p (0 : Fin 1)) (fun b => by
      match b with
      | ⟨0, _⟩ => rfl
      | ⟨1, _⟩ => rfl)]
  exact column_apply t0 p 0

/-- … and second, entry p of the second table. -/
theorem pairIdxOf_apply1 (t0 t1 : IVec S325 32) (p : Fin 325) : pairIdxOf t0 t1 (ix2 p (1 : Fin 2)) = t1 (ix1 p) := by
  unfold pairIdxOf
  rw [concatenate_pair_apply_right (1 : Fin S325x2.rank) (column t0) (column t1) concatenates_S325x1_S325x1_S325x2_d1
    (ix2 p (1 : Fin 2)) rfl rfl (ix2 p (0 : Fin 1)) (fun b hb => by
      match b, hb with
      | ⟨0, _⟩, _ => rfl
      | ⟨1, _⟩, hb => exact absurd rfl hb) rfl]
  exact column_apply t1 p 0

/-- The first table at p is the program's first literal at p. -/
theorem rowTable_apply (p : Fin 325) : rowTable (ix1 p) = lit0 p :=
  congrArg lit0 (Fin.ext (Shape.rowMajor_val_one (ix1 p)))
/-- The second table at p is the program's second literal at p. -/
theorem colTable_apply (p : Fin 325) : colTable (ix1 p) = lit1 p :=
  congrArg lit1 (Fin.ext (Shape.rowMajor_val_one (ix1 p)))

/-- The first literal, read as the gather reads a start index (signed, then clamped to 0 … 25), is the triangle row. -/
theorem lit0_row : ∀ p : Fin 325, min (lit0 p).toInt.toNat 25 = triRowN p.val := by decide +kernel
/-- The second literal, read the same way, is the triangle column. -/
theorem lit1_col : ∀ p : Fin 325, min (lit1 p).toInt.toNat 25 = triColN p.val := by decide +kernel

/-! ## The gather -/

/-- The gather's dimension numbers: result axis 0 is the one offset axis and runs over the operand's axis 0; the
    operand's axes 1 and 2 are collapsed and take the two components of the start index. -/
abbrev GD := gather_S16384x26x26_S325x2_S16384x325_0_12_n_n_12_1_1638411

theorem gd_batch (j : S16384x325.Idx) (a : Fin 3) : GD.batchCoord j a = 0 :=
  GatherDims.batchCoord_eq_zero _ _ _ List.not_mem_nil

theorem gd_start0 (j : S16384x325.Idx) (idx : IVec S325x2 32) : GD.start j idx 0 = 0 := by
  unfold GatherDims.start
  rw [dif_neg (by decide)]

theorem gd_off0 (b : Fin 16384) (p : Fin 325) : GD.offCoord (ix2 b p) 0 = b.val := by
  unfold GatherDims.offCoord
  rw [dif_pos (by decide)]
  rfl

theorem gd_off1 (j : S16384x325.Idx) : GD.offCoord j 1 = 0 :=
  GatherDims.offCoord_eq_zero _ _ _ (by decide)
theorem gd_off2 (j : S16384x325.Idx) : GD.offCoord j 2 = 0 :=
  GatherDims.offCoord_eq_zero _ _ _ (by decide)

/-- Where result index (b, p) reads component c of its start index: row p, column c of the start indices. -/
theorem gd_siIdx (b : Fin 16384) (p : Fin 325) (c : Fin 2) :
    GD.siIdx (ix2 b p) c = ix2 p c := by
  funext a
  refine Fin.ext ?_
  match a with
  | ⟨0, _⟩ => rfl
  | ⟨1, _⟩ => rfl

theorem gd_start1 (b : Fin 16384) (p : Fin 325) (idx : IVec S325x2 32) :
    GD.start (ix2 b p) idx 1 = min (idx (ix2 p (0 : Fin 2))).toInt.toNat 25 := by
  unfold GatherDims.start
  rw [dif_pos (by decide)]
  have h := gd_siIdx b p (0 : Fin 2)
  exact congrArg (fun i => min (idx i).toInt.toNat 25) h

theorem gd_start2 (b : Fin 16384) (p : Fin 325) (idx : IVec S325x2 32) :
    GD.start (ix2 b p) idx 2 = min (idx (ix2 p (1 : Fin 2))).toInt.toNat 25 := by
  unfold GatherDims.start
  rw [dif_pos (by decide)]
  have h := gd_siIdx b p (1 : Fin 2)
  exact congrArg (fun i => min (idx i).toInt.toNat 25) h

/-- THE GATHER READ AT (b, p): the operand at row b and at the two components of start index p, each read signed and
    clamped to 0 … 25. -/
theorem gather_apply {α : Type} (g : S16384x26x26.Idx → α) (idx : IVec S325x2 32) (b : Fin 16384) (p : Fin 325) :
    Host.gather GD g idx (ix2 b p)
      = g (ix3 b (⟨min (idx (ix2 p (0 : Fin 2))).toInt.toNat 25, by omega⟩ : Fin 26)
            (⟨min (idx (ix2 p (1 : Fin 2))).toInt.toNat 25, by omega⟩ : Fin 26)) := by
  unfold Host.gather
  refine congrArg g (funext fun a => Fin.ext ?_)
  show GD.start (ix2 b p) idx a + GD.batchCoord (ix2 b p) a + GD.offCoord (ix2 b p) a = _
  rw [gd_batch]
  match a with
  | ⟨0, _⟩ => exact (congrArg₂ (· + 0 + ·) (gd_start0 (ix2 b p) idx) (gd_off0 b p)).trans (by simp)
  | ⟨1, _⟩ => exact (congrArg₂ (· + 0 + ·) (gd_start1 b p idx) (gd_off1 (ix2 b p))).trans (by simp)
  | ⟨2, _⟩ => exact (congrArg₂ (· + 0 + ·) (gd_start2 b p idx) (gd_off2 (ix2 b p))).trans (by simp)

/-! ## The Gram matrix -/

/-- The Gram matrix's dimension numbers: axis 0 of both operands is the batch axis, axis 1 of each is kept (the
    result's axes 1 and 2), axis 2 of both is contracted. -/
abbrev DD := dot_S16384x26x128_S16384x26x128_S16384x26x26_2_2_1_1_0_0

theorem lhs_0 (j : S16384x26x26.Idx) (k : dot_S16384x26x128_S16384x26x128_S16384x26x26_2_2_1_1_0_0.contr.Idx) :
    (dot_S16384x26x128_S16384x26x128_S16384x26x26_2_2_1_1_0_0.lhsIdx j k 0 : ℕ) = j 0 := by
  unfold DotDims.lhsIdx
  rw [dif_pos (by decide)]
  rfl
theorem lhs_1 (j : S16384x26x26.Idx) (k : dot_S16384x26x128_S16384x26x128_S16384x26x26_2_2_1_1_0_0.contr.Idx) :
    (dot_S16384x26x128_S16384x26x128_S16384x26x26_2_2_1_1_0_0.lhsIdx j k 1 : ℕ) = j 1 := by
  unfold DotDims.lhsIdx
  rw [dif_neg (by decide), dif_pos (by decide)]
  rfl
theorem lhs_2 (j : S16384x26x26.Idx) (k : dot_S16384x26x128_S16384x26x128_S16384x26x26_2_2_1_1_0_0.contr.Idx) :
    (dot_S16384x26x128_S16384x26x128_S16384x26x26_2_2_1_1_0_0.lhsIdx j k 2 : ℕ) = k ⟨0, by decide⟩ :=
  DotDims.lhsIdx_val_of_single _ rfl j k
/-- On the contracted axis, at the contraction position that entry d names, the left index is d. -/
theorem lhs_2d (j : S16384x26x26.Idx) (d : Fin 128) :
    (dot_S16384x26x128_S16384x26x128_S16384x26x26_2_2_1_1_0_0.lhsIdx j
      ((contrEquiv1 dot_S16384x26x128_S16384x26x128_S16384x26x26_2_2_1_1_0_0 128 rfl rfl).symm d) 2 : ℕ) = d.val :=
  (lhs_2 j _).trans (contrEquiv1_symm_val dot_S16384x26x128_S16384x26x128_S16384x26x26_2_2_1_1_0_0 128 rfl rfl d)
theorem rhs_0 (j : S16384x26x26.Idx) (k : dot_S16384x26x128_S16384x26x128_S16384x26x26_2_2_1_1_0_0.contr.Idx) :
    (dot_S16384x26x128_S16384x26x128_S16384x26x26_2_2_1_1_0_0.rhsIdx j k 0 : ℕ) = j 0 := by
  unfold DotDims.rhsIdx
  rw [dif_pos (by decide)]
  rfl
theorem rhs_1 (j : S16384x26x26.Idx) (k : dot_S16384x26x128_S16384x26x128_S16384x26x26_2_2_1_1_0_0.contr.Idx) :
    (dot_S16384x26x128_S16384x26x128_S16384x26x26_2_2_1_1_0_0.rhsIdx j k 1 : ℕ) = j 2 := by
  unfold DotDims.rhsIdx
  rw [dif_neg (by decide), dif_pos (by decide)]
  rfl
theorem rhs_2 (j : S16384x26x26.Idx) (k : dot_S16384x26x128_S16384x26x128_S16384x26x26_2_2_1_1_0_0.contr.Idx) :
    (dot_S16384x26x128_S16384x26x128_S16384x26x26_2_2_1_1_0_0.rhsIdx j k 2 : ℕ) = k ⟨0, by decide⟩ :=
  DotDims.rhsIdx_val_of_single _ rfl j k
/-- Likewise the right index. -/
theorem rhs_2d (j : S16384x26x26.Idx) (d : Fin 128) :
    (dot_S16384x26x128_S16384x26x128_S16384x26x26_2_2_1_1_0_0.rhsIdx j
      ((contrEquiv1 dot_S16384x26x128_S16384x26x128_S16384x26x26_2_2_1_1_0_0 128 rfl rfl).symm d) 2 : ℕ) = d.val :=
  (rhs_2 j _).trans (contrEquiv1_symm_val dot_S16384x26x128_S16384x26x128_S16384x26x26_2_2_1_1_0_0 128 rfl rfl d)

/-- Entry d of embedding f of row b, where the left operand of the product at (b, f, g) reads it. -/
theorem emb_lhs (x : S16384x3328.Idx → EReal) (b : Fin 16384) (f g : Fin 26) (d : Fin 128) :
    emb (F := Ideal) x (DD.lhsIdx (ix3 b f g) ((contrEquiv1 DD 128 rfl rfl).symm d)) = x (ix2 b (embCol f d)) := by
  unfold emb
  refine shapeCast_apply x _ _ (ix2 b (embCol f d)) ?_
  rw [Shape.rowMajor_val_two, Shape.rowMajor_val_three, lhs_0, lhs_1, lhs_2d]
  show b.val * 3328 + (128 * f.val + d.val) = (b.val * 26 + f.val) * 128 + d.val
  omega

/-- Entry d of embedding g of row b, where the right operand reads it. -/
theorem emb_rhs (x : S16384x3328.Idx → EReal) (b : Fin 16384) (f g : Fin 26) (d : Fin 128) :
    emb (F := Ideal) x (DD.rhsIdx (ix3 b f g) ((contrEquiv1 DD 128 rfl rfl).symm d)) = x (ix2 b (embCol g d)) := by
  unfold emb
  refine shapeCast_apply x _ _ (ix2 b (embCol g d)) ?_
  rw [Shape.rowMajor_val_two, Shape.rowMajor_val_three, rhs_0, rhs_1, rhs_2d]
  show b.val * 3328 + (128 * g.val + d.val) = (b.val * 26 + g.val) * 128 + d.val
  omega

/-- THE GRAM MATRIX READ AT (b, f, g): the dot product of embeddings f and g of row b. -/
theorem gram_apply (x : S16384x3328.Idx → EReal) (b : Fin 16384) (f g : Fin 26) :
    gram (F := Ideal) x (ix3 b f g) = pairDot (fun c => x (ix2 b c)) f g := by
  unfold gram pairDot
  simp only [Host.dotGeneral]
  rw [Ideal.dotGeneral_apply, ← Equiv.sum_comp (contrEquiv1 DD 128 rfl rfl).symm]
  exact Finset.sum_congr rfl fun d _ => by rw [emb_lhs, emb_rhs]

/-! ## The pairs, and the whole result -/

/-- THE PAIRS READ AT (b, p): the dot product of the two embeddings of row b that pair p names. -/
theorem pairs_apply (x : S16384x3328.Idx → EReal) (b : Fin 16384) (p : Fin 325) :
    pairs (F := Ideal) x (ix2 b p) = pairDot (fun c => x (ix2 b c)) (triRow p) (triCol p) := by
  unfold pairs pairsOf
  rw [gather_apply]
  have e0 : (⟨min (pairIdx (ix2 p (0 : Fin 2))).toInt.toNat 25, by omega⟩ : Fin 26) = triRow p := Fin.ext (by
    show min (pairIdx (ix2 p (0 : Fin 2))).toInt.toNat 25 = (triRow p).val
    unfold pairIdx
    rw [triRow_val, pairIdxOf_apply0, rowTable_apply]
    exact lit0_row p)
  have e1 : (⟨min (pairIdx (ix2 p (1 : Fin 2))).toInt.toNat 25, by omega⟩ : Fin 26) = triCol p := Fin.ext (by
    show min (pairIdx (ix2 p (1 : Fin 2))).toInt.toNat 25 = (triCol p).val
    unfold pairIdx
    rw [triCol_val, pairIdxOf_apply1, colTable_apply]
    exact lit1_col p)
  rw [e0, e1]
  exact gram_apply x b (triRow p) (triCol p)

/-- THE RESULT IS G: at (b, j) the concatenation reads its first piece for j below 3328, its second for j below 3653,
    its third above. -/
theorem out_eq_G (x : S16384x3328.Idx → EReal) (y : S16384x128.Idx → EReal) : out (F := Ideal) x y = G x y := by
  funext i
  obtain ⟨b, j, rfl⟩ : ∃ (b : Fin 16384) (j : Fin 3781), i = ix2 b j := ⟨i 0, i 1, eq_ix2 i⟩
  rw [G_apply]
  unfold out outOf
  by_cases h1 : j.val < 3328
  · rw [rowG_sparse _ _ j h1]
    exact concatenate_apply_piece (1 : Fin S16384x3781.rank) [⟨S16384x3328, x⟩, ⟨S16384x325, pairs (F := Ideal) x⟩, ⟨S16384x128, y⟩] concatenates_S16384x3328_S16384x325_S16384x128_S16384x3781_d1
      (ix2 b j) 0 (by simp) S16384x3328 x rfl rfl 0 rfl (ix2 b (⟨j.val, h1⟩ : Fin 3328))
      (fun a ha => by
        match a, ha with
        | ⟨0, _⟩, _ => rfl
        | ⟨1, _⟩, ha => exact absurd rfl ha)
      (Nat.zero_add _)
  · by_cases h2 : j.val < 3653
    · rw [rowG_pair _ _ j (⟨j.val - 3328, by omega⟩ : Fin 325) (by show j.val = 3328 + (j.val - 3328); omega),
        ← pairs_apply x b]
      exact concatenate_apply_piece (1 : Fin S16384x3781.rank) [⟨S16384x3328, x⟩, ⟨S16384x325, pairs (F := Ideal) x⟩, ⟨S16384x128, y⟩] concatenates_S16384x3328_S16384x325_S16384x128_S16384x3781_d1
        (ix2 b j) 1 (by simp) S16384x325 (pairs (F := Ideal) x) rfl rfl 3328 rfl (ix2 b (⟨j.val - 3328, by omega⟩ : Fin 325))
        (fun a ha => by
          match a, ha with
          | ⟨0, _⟩, _ => rfl
          | ⟨1, _⟩, ha => exact absurd rfl ha)
        (by show 3328 + (j.val - 3328) = j.val; omega)
    · rw [rowG_dense _ _ j (⟨j.val - 3653, by have := j.isLt; omega⟩ : Fin 128) (by show j.val = 3653 + (j.val - 3653); omega)]
      exact concatenate_apply_piece (1 : Fin S16384x3781.rank) [⟨S16384x3328, x⟩, ⟨S16384x325, pairs (F := Ideal) x⟩, ⟨S16384x128, y⟩] concatenates_S16384x3328_S16384x325_S16384x128_S16384x3781_d1
        (ix2 b j) 2 (by simp) S16384x128 y rfl rfl 3653 rfl (ix2 b (⟨j.val - 3653, by have := j.isLt; omega⟩ : Fin 128))
        (fun a ha => by
          match a, ha with
          | ⟨0, _⟩, _ => rfl
          | ⟨1, _⟩, ha => exact absurd rfl ha)
        (by show 3653 + (j.val - 3653) = j.val; omega)

/-! ## The run -/

/-- On the device, from any memory with zero counters: every weakly fair execution of the reference program
    terminates with the result buffer at G of the two arguments, and the arguments unchanged. -/
theorem run_G (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v12) = Cert.Interaction.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (out_eq_G _ _), (h c).2⟩) (RefRun.run m ρ)

end Cert.ReferenceIdeal.RefValue

end
-- ==== Proof.lean ====
/-
  The certificate of the pairwise-interaction kernel against its reference, over the extended reals.

  Both programs take 16384 sparse rows of 26 embeddings of 128 entries and 16384 dense rows of 128 entries, and
  return per row the sparse row, the 325 dot products of its embeddings taken pair by pair in the order of the strict
  upper triangle of a 26 × 26 matrix, and the dense row: the function `Cert.Interaction.G` of the two argument
  arrays (Proof/Spec.lean).
  The kernel computes a row's dot products one triangle row at a time — embedding `k` repeated against embeddings
  `k + 1 … 25`, multiplied lane by lane, the 128 lanes added — and lays the 25 triangle rows end to end; it works on
  blocks of 256 rows over a grid of 64 points (Proof/Chunk.lean, Proof/KernelPayload.lean, Proof/KernelValue.lean).
  The reference forms each row's whole 26 × 26 matrix of dot products and picks the 325 entries above the diagonal
  by two tables of embedding numbers (Proof/RefRun.lean, Proof/RefValue.lean).
  Over the extended reals a lane sum from zero and a contraction are the same finite sum of the same products, so
  each side's result is `G` entry by entry with no appeal to the inputs' finiteness; the two runs end with equal
  results. The idealization rewrote nothing, so `preserves` has nothing to state. The word-level kernel's frame and
  the idealized kernel's are the generated frame certificates; the reference's frame is its run with the result
  dropped.
-/
import proofs.«131102_j12283606468241_1_alg».proof.Defs
import proofs.«131102_j12283606468241_1_alg».proof.Proof.Gen.Kernel
import proofs.«131102_j12283606468241_1_alg».proof.Proof.Gen.Kernel.Skeleton
import proofs.«131102_j12283606468241_1_alg».proof.Proof.Gen.Kernel.Launch
import proofs.«131102_j12283606468241_1_alg».proof.Proof.Gen.Kernel.Points
import proofs.«131102_j12283606468241_1_alg».proof.Proof.Gen.Kernel.Frame
import proofs.«131102_j12283606468241_1_alg».proof.Proof.Gen.KernelIdeal
import proofs.«131102_j12283606468241_1_alg».proof.Proof.Gen.KernelIdeal.Skeleton
import proofs.«131102_j12283606468241_1_alg».proof.Proof.Gen.KernelIdeal.Launch
import proofs.«131102_j12283606468241_1_alg».proof.Proof.Gen.KernelIdeal.Points
import proofs.«131102_j12283606468241_1_alg».proof.Proof.Gen.KernelIdeal.Frame
import proofs.«131102_j12283606468241_1_alg».proof.Proof.Gen.KernelIdeal.Value
import proofs.«131102_j12283606468241_1_alg».proof.Proof.Gen.ReferenceIdeal
import proofs.«131102_j12283606468241_1_alg».proof.Proof.Gen.Pre_finite_inputs
import proofs.«131102_j12283606468241_1_alg».proof.Proof.KernelValue
import proofs.«131102_j12283606468241_1_alg».proof.Proof.RefValue
import Idealize.ShloMosaic.Adequacy
import Idealize.ShloMosaic.Init

noncomputable section

namespace Cert.Proof

open Idealize.ShloMosaic Idealize.SL.Sem

/-- The word-level kernel runs and leaves its arguments as they were: its generated frame certificate. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments as they were: its run, the result dropped. -/
theorem frame_reference : Cert.frame_ReferenceIdeal := fun m ρ _ =>
  (θ_run Cert.ReferenceIdeal.defs _ _).mono (fun _ h c => (h c).2) (Cert.ReferenceIdeal.RefValue.run_G m ρ)

/-- From memories that agree on the arguments both runs end with the result array at `G` of the arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.RefValue.run_G m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
